-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S131072 : Shape := ⟨1, ![131072]⟩
abbrev S512x32 : Shape := ⟨2, ![512, 32]⟩
abbrev S32x16 : Shape := ⟨2, ![32, 16]⟩
abbrev S8192x16 : Shape := ⟨2, ![8192, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S131072 : S_.BroadcastsInDim S131072 (![] : Fin 0 → Fin S131072.rank)
  reducesTo_S131072_S_d0 : S131072.ReducesTo [0] S_
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part2 {F : FTy → Type} [FloatOps F] (main_arg9 : FVec F S8192x16 .f32) (main_v33 : IVec S_ 1) : IVec S_ 1 :=
  let main_v34 : FVec F S8192x16 .f32 := Host.absf main_arg9
  let main_cst_12 : FVec F S_ .f32 := constant S_ .f32 0x7F800000#32
  let main_v35 : FVec F S8192x16 .f32 := broadcastInDim S8192x16 ![] bcast_S_S8192x16 main_cst_12
  let main_v36 : IVec S8192x16 1 := cmpf .olt main_v34 main_v35
  let main_c_13 : IVec S_ 1 := constantI S_ 1 1#1
  let main_v37 : IVec S_ 1 := (fun x v => Host.reduce IntOp.andi x v reducesTo_S8192x16_S_d0_1 h_S_) main_v36 main_c_13
  let main_v38 : IVec S_ 1 := andi main_v33 main_v37
  main_v38

def fn_part1 {F : FTy → Type} [FloatOps F] (main_arg6 : FVec F S32x16 .f32) (main_arg7 : FVec F S32x16 .f32) (main_arg8 : FVec F S8192x16 .f32) (main_arg9 : FVec F S8192x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S8192x16 .f32 := Host.absf main_arg8
  let main_cst_10 : FVec F S_ .f32 := constant S_ .f32 0x7F800000#32
  let main_v30 : FVec F S8192x16 .f32 := broadcastInDim S8192x16 ![] bcast_S_S8192x16 main_cst_10
  let main_v31 : IVec S8192x16 1 := cmpf .olt main_v29 main_v30
  let main_c_11 : IVec S_ 1 := constantI S_ 1 1#1
  let main_v32 : IVec S_ 1 := (fun x v => Host.reduce IntOp.andi x v reducesTo_S8192x16_S_d0_1 h_S_) main_v31 main_c_11
  let main_v33 : IVec S_ 1 := andi main_v28 main_v32
  fn_part2 (F := F) main_arg9 main_v33

def fn {F : FTy → Type} [FloatOps F] (main_arg0 : FVec F S8192x512 .f32) (main_arg1 : IVec S131072 32) (main_arg2 : IVec S131072 32) (main_arg3 : FVec F S131072 .f32) (main_arg4 : FVec F S512x32 .f32) (main_arg5 : FVec F S32x16 .f32) (main_arg6 : FVec F S32x16 .f32) (main_arg7 : FVec F S32x16 .f32) (main_arg8 : FVec F S8192x16 .f32) (main_arg9 : FVec F S8192x16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S131072 .f32 := Host.absf main_arg3
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S512x32 .f32 := Host.absf main_arg4
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_arg7 main_arg8 main_arg9 main_v13 main_v16
-- ==== Kernel.lean ====
abbrev S8192x512 : Shape := ⟨2, ![8192, 512]⟩
abbrev S131072 : Shape := ⟨1, ![131072]⟩
abbrev S512x32 : Shape := ⟨2, ![512, 32]⟩
abbrev S32x16 : Shape := ⟨2, ![32, 16]⟩
abbrev S8192x16 : Shape := ⟨2, ![8192, 16]⟩
abbrev S8192x32 : Shape := ⟨2, ![8192, 32]⟩
abbrev S131072x1 : Shape := ⟨2, ![131072, 1]⟩
abbrev S_ : Shape := ⟨0, ![]⟩
abbrev S131072x32 : Shape := ⟨2, ![131072, 32]⟩
abbrev S131072x16 : Shape := ⟨2, ![131072, 16]⟩
abbrev S8192 : Shape := ⟨1, ![8192]⟩
abbrev S8192x1 : Shape := ⟨2, ![8192, 1]⟩
abbrev S8192x8192 : Shape := ⟨2, ![8192, 8192]⟩
abbrev S1024x16 : Shape := ⟨2, ![1024, 16]⟩
abbrev S1024x1024 : Shape := ⟨2, ![1024, 1024]⟩
abbrev S16x1024 : Shape := ⟨2, ![16, 1024]⟩
abbrev S67108864 : Shape := ⟨1, ![67108864]⟩

abbrev nBuf : Space → Nat
  | .hbm => 120
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S131072, .i32⟩
  | .hbm, ⟨2, _⟩ => ⟨S131072, .i32⟩
  | .hbm, ⟨3, _⟩ => ⟨S131072, .f32⟩
  | .hbm, ⟨4, _⟩ => ⟨S512x32, .f32⟩
  | .hbm, ⟨5, _⟩ => ⟨S32x16, .f32⟩
  | .hbm, ⟨6, _⟩ => ⟨S32x16, .f32⟩
  | .hbm, ⟨7, _⟩ => ⟨S32x16, .f32⟩
  | .hbm, ⟨8, _⟩ => ⟨S8192x16, .f32⟩
  | .hbm, ⟨9, _⟩ => ⟨S8192x16, .f32⟩
  | .hbm, ⟨10, _⟩ => ⟨S8192x32, .f32⟩
  | .hbm, ⟨11, _⟩ => ⟨S131072x1, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072x32, .f32⟩
  | .hbm, ⟨21, _⟩ => ⟨S131072x32, .f32⟩
  | .hbm, ⟨22, _⟩ => ⟨S131072x32, .f32⟩
  | .hbm, ⟨23, _⟩ => ⟨S_, .f32⟩
  | .hbm, ⟨24, _⟩ => ⟨S8192x32, .f32⟩
  | .hbm, ⟨25, _⟩ => ⟨S131072x1, .i32⟩
  | .hbm, ⟨26, _⟩ => ⟨S8192x32, .f32⟩
  | .hbm, ⟨27, _⟩ => ⟨S_, .f32⟩
  | .hbm, ⟨28, _⟩ => ⟨S8192x32, .f32⟩
  | .hbm, ⟨29, _⟩ => ⟨S8192x32, .f32⟩
  | .hbm, ⟨30, _⟩ => ⟨S8192x16, .f32⟩
  | .hbm, ⟨31, _⟩ => ⟨S131072x1, .f32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S131072x16, .f32⟩
  | .hbm, ⟨41, _⟩ => ⟨S131072x16, .f32⟩
  | .hbm, ⟨42, _⟩ => ⟨S131072x16, .f32⟩
  | .hbm, ⟨43, _⟩ => ⟨S_, .f32⟩
  | .hbm, ⟨44, _⟩ => ⟨S8192x16, .f32⟩
  | .hbm, ⟨45, _⟩ => ⟨S131072x1, .i32⟩
  | .hbm, ⟨46, _⟩ => ⟨S8192x16, .f32⟩
  | .hbm, ⟨47, _⟩ => ⟨S8192x16, .f32⟩
  | .hbm, ⟨48, _⟩ => ⟨S131072x1, .f32⟩
  | .hbm, ⟨49, _⟩ => ⟨S_, .i32⟩
  | .hbm, ⟨50, _⟩ => ⟨S131072, .i32⟩
  | .hbm, ⟨51, _⟩ => ⟨S131072, .i1⟩
  | .hbm, ⟨52, _⟩ => ⟨S_, .i32⟩
  | .hbm, ⟨53, _⟩ => ⟨S131072, .i32⟩
  | .hbm, ⟨54, _⟩ => ⟨S131072, .i32⟩
  | .hbm, ⟨55, _⟩ => ⟨S131072, .i32⟩
  | .hbm, ⟨56, _⟩ => ⟨S131072x1, .i32⟩
  | .hbm, ⟨57, _⟩ => ⟨S131072x16, .f32⟩
  | .hbm, ⟨58, _⟩ => ⟨S131072x16, .f32⟩
  | .hbm, ⟨59, _⟩ => ⟨S131072x16, .f32⟩
  | .hbm, ⟨60, _⟩ => ⟨S_, .f32⟩
  | .hbm, ⟨61, _⟩ => ⟨S8192x16, .f32⟩
  | .hbm, ⟨62, _⟩ => ⟨S131072x1, .i32⟩
  | .hbm, ⟨63, _⟩ => ⟨S8192x16, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S131072x1, .f32⟩
  | .hbm, ⟨80, _⟩ => ⟨S_, .i32⟩
  | .hbm, ⟨81, _⟩ => ⟨S131072, .i32⟩
  | .hbm, ⟨82, _⟩ => ⟨S131072, .i1⟩
  | .hbm, ⟨83, _⟩ => ⟨S_, .i32⟩
  | .hbm, ⟨84, _⟩ => ⟨S131072, .i32⟩
  | .hbm, ⟨85, _⟩ => ⟨S131072, .i32⟩
  | .hbm, ⟨86, _⟩ => ⟨S131072, .i32⟩
  | .hbm, ⟨87, _⟩ => ⟨S131072x1, .i32⟩
  | .hbm, ⟨88, _⟩ => ⟨S131072x16, .f32⟩
  | .hbm, ⟨89, _⟩ => ⟨S131072x16, .f32⟩
  | .hbm, ⟨90, _⟩ => ⟨S131072x16, .f32⟩
  | .hbm, ⟨91, _⟩ => ⟨S_, .f32⟩
  | .hbm, ⟨92, _⟩ => ⟨S8192x16, .f32⟩
  | .hbm, ⟨93, _⟩ => ⟨S131072x1, .i32⟩
  | .hbm, ⟨94, _⟩ => ⟨S8192x16, .f32⟩
  | .hbm, ⟨95, _⟩ => ⟨S_, .f32⟩
  | .hbm, ⟨96, _⟩ => ⟨S8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S8192x1, .f32⟩
  | .hbm, ⟨101, _⟩ => ⟨S8192x16, .f32⟩
  | .hbm, ⟨102, _⟩ => ⟨S8192x16, .f32⟩
  | .hbm, ⟨103, _⟩ => ⟨S8192x16, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S8192x16, .f32⟩
  | .hbm, ⟨108, _⟩ => ⟨S8192x16, .f32⟩
  | .hbm, ⟨109, _⟩ => ⟨S8192x16, .f32⟩
  | .hbm, ⟨110, _⟩ => ⟨S8192x16, .f32⟩
  | .hbm, ⟨111, _⟩ => ⟨S_, .f32⟩
  | .hbm, ⟨112, _⟩ => ⟨S8192x16, .f32⟩
  | .hbm, ⟨113, _⟩ => ⟨S8192x16, .f32⟩
  | .hbm, ⟨114, _⟩ => ⟨S8192x16, .f32⟩
  | .hbm, ⟨115, _⟩ => ⟨S8192x16, .f32⟩
  | .hbm, ⟨116, _⟩ => ⟨S8192x16, .f32⟩
  | .hbm, ⟨117, _⟩ => ⟨S8192x16, .f32⟩
  | .hbm, ⟨118, _⟩ => ⟨S8192x8192, .f32⟩
  | .hbm, ⟨119, _⟩ => ⟨S67108864, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x32_0_1 : S131072x1.BroadcastsInDim S131072x32 (![0, 1] : Fin 2 → Fin S131072x32.rank)
  bcast_S_S8192x32 : S_.BroadcastsInDim S8192x32 (![] : Fin 0 → Fin S8192x32.rank)
  bcast_S131072x1_S131072x16_0_1 : S131072x1.BroadcastsInDim S131072x16 (![0, 1] : Fin 2 → Fin S131072x16.rank)
  bcast_S_S8192x16 : S_.BroadcastsInDim S8192x16 (![] : Fin 0 → Fin S8192x16.rank)
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  transposes_S1024x16_p1_0_S16x1024 : S1024x16.Transposes [1, 0] S16x1024
  inb_S1024x1024_S1024x1024_0_0 : ∀ a, (![0, 0] : Fin 2 → Nat) a + S1024x1024.size a ≤ S1024x1024.size a
  h_S1024x1024 : 0 < S1024x1024.numel
  shapeCasts_S8192x8192_S67108864 : S8192x8192.ShapeCasts S67108864
  dot_S8192x512_S512x32_S8192x32_1_0_0_1_n_n_wf : DotDims.WF S8192x512 S512x32 S8192x32 [1] [0] [0] [1] [] []
  gather_S8192x32_S131072x1_S131072x32_1_0_n_n_0_1_132_wf : GatherDims.WF S8192x32 S131072x1 S131072x32 [1] [0] [] [0] [] 1 ![1, 32]
  scatter_S8192x32_S131072x1_S131072x32_1_0_0_1_wf : ScatterDims.WF S8192x32 S131072x1 S131072x32 [1] [0] [0] 1
  dot_S8192x32_S32x16_S8192x16_1_0_0_1_n_n_wf : DotDims.WF S8192x32 S32x16 S8192x16 [1] [0] [0] [1] [] []
  gather_S8192x16_S131072x1_S131072x16_1_0_n_n_0_1_116_wf : GatherDims.WF S8192x16 S131072x1 S131072x16 [1] [0] [] [0] [] 1 ![1, 16]
  scatter_S8192x16_S131072x1_S131072x16_1_0_0_1_wf : ScatterDims.WF S8192x16 S131072x1 S131072x16 [1] [0] [0] 1
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S8192x16.size a
  hwx0_0 : ∀ i : grid0.Coords, EltTy.bits .f32 = 32 ∨ (Rect.block (s := S8192x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S8192x16.size a
  hwx0_1 : ∀ i : grid0.Coords, EltTy.bits .f32 = 32 ∨ (Rect.block (s := S8192x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def gather_S8192x32_S131072x1_S131072x32_1_0_n_n_0_1_132 : GatherDims S8192x32 S131072x1 S131072x32 where
  offsetDims := [1]
  collapsedSliceDims := [0]
  operandBatchingDims := []
  startIndicesBatchingDims := []
  startIndexMap := [0]
  indexVectorDim := 1
  sliceSizes := ![1, 32]
  wf := gather_S8192x32_S131072x1_S131072x32_1_0_n_n_0_1_132_wf
def scatter_S8192x32_S131072x1_S131072x32_1_0_0_1 : ScatterDims S8192x32 S131072x1 S131072x32 where
  updateWindowDims := [1]
  insertedWindowDims := [0]
  scatterDimsToOperandDims := [0]
  indexVectorDim := 1
  wf := scatter_S8192x32_S131072x1_S131072x32_1_0_0_1_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S131072x1_S131072x16_1_0_n_n_0_1_116 : GatherDims S8192x16 S131072x1 S131072x16 where
  offsetDims := [1]
  collapsedSliceDims := [0]
  operandBatchingDims := []
  startIndicesBatchingDims := []
  startIndexMap := [0]
  indexVectorDim := 1
  sliceSizes := ![1, 16]
  wf := gather_S8192x16_S131072x1_S131072x16_1_0_n_n_0_1_116_wf
def scatter_S8192x16_S131072x1_S131072x16_1_0_0_1 : ScatterDims S8192x16 S131072x1 S131072x16 where
  updateWindowDims := [1]
  insertedWindowDims := [0]
  scatterDimsToOperandDims := [0]
  indexVectorDim := 1
  wf := scatter_S8192x16_S131072x1_S131072x16_1_0_0_1_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v86) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v86) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v87) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S131072 : Shape := ⟨1, ![131072]⟩
abbrev S512x32 : Shape := ⟨2, ![512, 32]⟩
abbrev S32x16 : Shape := ⟨2, ![32, 16]⟩
abbrev S8192x16 : Shape := ⟨2, ![8192, 16]⟩
abbrev S8192x32 : Shape := ⟨2, ![8192, 32]⟩
abbrev S131072x1 : Shape := ⟨2, ![131072, 1]⟩
abbrev S_ : Shape := ⟨0, ![]⟩
abbrev S131072x32 : Shape := ⟨2, ![131072, 32]⟩
abbrev S131072x16 : Shape := ⟨2, ![131072, 16]⟩
abbrev S8192 : Shape := ⟨1, ![8192]⟩
abbrev S8192x1 : Shape := ⟨2, ![8192, 1]⟩
abbrev S16x8192 : Shape := ⟨2, ![16, 8192]⟩
abbrev S8192x8192 : Shape := ⟨2, ![8192, 8192]⟩
abbrev S67108864 : Shape := ⟨1, ![67108864]⟩

abbrev nBuf : Space → Nat
  | .hbm => 121
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S131072, .i32⟩
  | .hbm, ⟨2, _⟩ => ⟨S131072, .i32⟩
  | .hbm, ⟨3, _⟩ => ⟨S131072, .f32⟩
  | .hbm, ⟨4, _⟩ => ⟨S512x32, .f32⟩
  | .hbm, ⟨5, _⟩ => ⟨S32x16, .f32⟩
  | .hbm, ⟨6, _⟩ => ⟨S32x16, .f32⟩
  | .hbm, ⟨7, _⟩ => ⟨S32x16, .f32⟩
  | .hbm, ⟨8, _⟩ => ⟨S8192x16, .f32⟩
  | .hbm, ⟨9, _⟩ => ⟨S8192x16, .f32⟩
  | .hbm, ⟨10, _⟩ => ⟨S8192x32, .f32⟩
  | .hbm, ⟨11, _⟩ => ⟨S131072x1, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072x32, .f32⟩
  | .hbm, ⟨21, _⟩ => ⟨S131072x32, .f32⟩
  | .hbm, ⟨22, _⟩ => ⟨S131072x32, .f32⟩
  | .hbm, ⟨23, _⟩ => ⟨S_, .f32⟩
  | .hbm, ⟨24, _⟩ => ⟨S8192x32, .f32⟩
  | .hbm, ⟨25, _⟩ => ⟨S131072x1, .i32⟩
  | .hbm, ⟨26, _⟩ => ⟨S8192x32, .f32⟩
  | .hbm, ⟨27, _⟩ => ⟨S_, .f32⟩
  | .hbm, ⟨28, _⟩ => ⟨S8192x32, .f32⟩
  | .hbm, ⟨29, _⟩ => ⟨S8192x32, .f32⟩
  | .hbm, ⟨30, _⟩ => ⟨S8192x16, .f32⟩
  | .hbm, ⟨31, _⟩ => ⟨S131072x1, .f32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S131072x16, .f32⟩
  | .hbm, ⟨41, _⟩ => ⟨S131072x16, .f32⟩
  | .hbm, ⟨42, _⟩ => ⟨S131072x16, .f32⟩
  | .hbm, ⟨43, _⟩ => ⟨S_, .f32⟩
  | .hbm, ⟨44, _⟩ => ⟨S8192x16, .f32⟩
  | .hbm, ⟨45, _⟩ => ⟨S131072x1, .i32⟩
  | .hbm, ⟨46, _⟩ => ⟨S8192x16, .f32⟩
  | .hbm, ⟨47, _⟩ => ⟨S8192x16, .f32⟩
  | .hbm, ⟨48, _⟩ => ⟨S131072x1, .f32⟩
  | .hbm, ⟨49, _⟩ => ⟨S_, .i32⟩
  | .hbm, ⟨50, _⟩ => ⟨S131072, .i32⟩
  | .hbm, ⟨51, _⟩ => ⟨S131072, .i1⟩
  | .hbm, ⟨52, _⟩ => ⟨S_, .i32⟩
  | .hbm, ⟨53, _⟩ => ⟨S131072, .i32⟩
  | .hbm, ⟨54, _⟩ => ⟨S131072, .i32⟩
  | .hbm, ⟨55, _⟩ => ⟨S131072, .i32⟩
  | .hbm, ⟨56, _⟩ => ⟨S131072x1, .i32⟩
  | .hbm, ⟨57, _⟩ => ⟨S131072x16, .f32⟩
  | .hbm, ⟨58, _⟩ => ⟨S131072x16, .f32⟩
  | .hbm, ⟨59, _⟩ => ⟨S131072x16, .f32⟩
  | .hbm, ⟨60, _⟩ => ⟨S_, .f32⟩
  | .hbm, ⟨61, _⟩ => ⟨S8192x16, .f32⟩
  | .hbm, ⟨62, _⟩ => ⟨S131072x1, .i32⟩
  | .hbm, ⟨63, _⟩ => ⟨S8192x16, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S131072x1, .f32⟩
  | .hbm, ⟨80, _⟩ => ⟨S_, .i32⟩
  | .hbm, ⟨81, _⟩ => ⟨S131072, .i32⟩
  | .hbm, ⟨82, _⟩ => ⟨S131072, .i1⟩
  | .hbm, ⟨83, _⟩ => ⟨S_, .i32⟩
  | .hbm, ⟨84, _⟩ => ⟨S131072, .i32⟩
  | .hbm, ⟨85, _⟩ => ⟨S131072, .i32⟩
  | .hbm, ⟨86, _⟩ => ⟨S131072, .i32⟩
  | .hbm, ⟨87, _⟩ => ⟨S131072x1, .i32⟩
  | .hbm, ⟨88, _⟩ => ⟨S131072x16, .f32⟩
  | .hbm, ⟨89, _⟩ => ⟨S131072x16, .f32⟩
  | .hbm, ⟨90, _⟩ => ⟨S131072x16, .f32⟩
  | .hbm, ⟨91, _⟩ => ⟨S_, .f32⟩
  | .hbm, ⟨92, _⟩ => ⟨S8192x16, .f32⟩
  | .hbm, ⟨93, _⟩ => ⟨S131072x1, .i32⟩
  | .hbm, ⟨94, _⟩ => ⟨S8192x16, .f32⟩
  | .hbm, ⟨95, _⟩ => ⟨S_, .f32⟩
  | .hbm, ⟨96, _⟩ => ⟨S8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S8192x1, .f32⟩
  | .hbm, ⟨101, _⟩ => ⟨S8192x16, .f32⟩
  | .hbm, ⟨102, _⟩ => ⟨S8192x16, .f32⟩
  | .hbm, ⟨103, _⟩ => ⟨S8192x16, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S8192x16, .f32⟩
  | .hbm, ⟨108, _⟩ => ⟨S8192x16, .f32⟩
  | .hbm, ⟨109, _⟩ => ⟨S8192x16, .f32⟩
  | .hbm, ⟨110, _⟩ => ⟨S8192x16, .f32⟩
  | .hbm, ⟨111, _⟩ => ⟨S_, .f32⟩
  | .hbm, ⟨112, _⟩ => ⟨S8192x16, .f32⟩
  | .hbm, ⟨113, _⟩ => ⟨S8192x16, .f32⟩
  | .hbm, ⟨114, _⟩ => ⟨S8192x16, .f32⟩
  | .hbm, ⟨115, _⟩ => ⟨S8192x16, .f32⟩
  | .hbm, ⟨116, _⟩ => ⟨S8192x16, .f32⟩
  | .hbm, ⟨117, _⟩ => ⟨S8192x16, .f32⟩
  | .hbm, ⟨118, _⟩ => ⟨S16x8192, .f32⟩
  | .hbm, ⟨119, _⟩ => ⟨S8192x8192, .f32⟩
  | .hbm, ⟨120, _⟩ => ⟨S67108864, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x32_0_1 : S131072x1.BroadcastsInDim S131072x32 (![0, 1] : Fin 2 → Fin S131072x32.rank)
  bcast_S_S8192x32 : S_.BroadcastsInDim S8192x32 (![] : Fin 0 → Fin S8192x32.rank)
  bcast_S131072x1_S131072x16_0_1 : S131072x1.BroadcastsInDim S131072x16 (![0, 1] : Fin 2 → Fin S131072x16.rank)
  bcast_S_S8192x16 : S_.BroadcastsInDim S8192x16 (![] : Fin 0 → Fin S8192x16.rank)
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  transposes_S8192x16_S16x8192_1_0 : S8192x16.Transposes [1, 0] S16x8192
  shapeCasts_S8192x8192_S67108864 : S8192x8192.ShapeCasts S67108864
  dot_S8192x512_S512x32_S8192x32_1_0_0_1_n_n_wf : DotDims.WF S8192x512 S512x32 S8192x32 [1] [0] [0] [1] [] []
  gather_S8192x32_S131072x1_S131072x32_1_0_n_n_0_1_132_wf : GatherDims.WF S8192x32 S131072x1 S131072x32 [1] [0] [] [0] [] 1 ![1, 32]
  scatter_S8192x32_S131072x1_S131072x32_1_0_0_1_wf : ScatterDims.WF S8192x32 S131072x1 S131072x32 [1] [0] [0] 1
  dot_S8192x32_S32x16_S8192x16_1_0_0_1_n_n_wf : DotDims.WF S8192x32 S32x16 S8192x16 [1] [0] [0] [1] [] []
  gather_S8192x16_S131072x1_S131072x16_1_0_n_n_0_1_116_wf : GatherDims.WF S8192x16 S131072x1 S131072x16 [1] [0] [] [0] [] 1 ![1, 16]
  scatter_S8192x16_S131072x1_S131072x16_1_0_0_1_wf : ScatterDims.WF S8192x16 S131072x1 S131072x16 [1] [0] [0] 1
  dot_S8192x16_S16x8192_S8192x8192_1_0_0_1_n_n_wf : DotDims.WF S8192x16 S16x8192 S8192x8192 [1] [0] [0] [1] [] []

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def gather_S8192x32_S131072x1_S131072x32_1_0_n_n_0_1_132 : GatherDims S8192x32 S131072x1 S131072x32 where
  offsetDims := [1]
  collapsedSliceDims := [0]
  operandBatchingDims := []
  startIndicesBatchingDims := []
  startIndexMap := [0]
  indexVectorDim := 1
  sliceSizes := ![1, 32]
  wf := gather_S8192x32_S131072x1_S131072x32_1_0_n_n_0_1_132_wf
def scatter_S8192x32_S131072x1_S131072x32_1_0_0_1 : ScatterDims S8192x32 S131072x1 S131072x32 where
  updateWindowDims := [1]
  insertedWindowDims := [0]
  scatterDimsToOperandDims := [0]
  indexVectorDim := 1
  wf := scatter_S8192x32_S131072x1_S131072x32_1_0_0_1_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S131072x1_S131072x16_1_0_n_n_0_1_116 : GatherDims S8192x16 S131072x1 S131072x16 where
  offsetDims := [1]
  collapsedSliceDims := [0]
  operandBatchingDims := []
  startIndicesBatchingDims := []
  startIndexMap := [0]
  indexVectorDim := 1
  sliceSizes := ![1, 16]
  wf := gather_S8192x16_S131072x1_S131072x16_1_0_n_n_0_1_116_wf
def scatter_S8192x16_S131072x1_S131072x16_1_0_0_1 : ScatterDims S8192x16 S131072x1 S131072x16 where
  updateWindowDims := [1]
  insertedWindowDims := [0]
  scatterDimsToOperandDims := [0]
  indexVectorDim := 1
  wf := scatter_S8192x16_S131072x1_S131072x16_1_0_0_1_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.Spec.lean ====
import Idealize.ShloMosaic.PureOps.Ideal
import Idealize.ShloMosaic.Lib.ValueIdx

/-!
# The decoder's result as one function of the embedding

Both programs end with the inner-product decoder of a node embedding `z : [8192, 16]`: entry `(i, j)` of the
`[8192, 8192]` result is the inner product of rows `i` and `j` of `z`, and the program returns the result
flattened row by row. Over the extended reals the inner product is the plain sum of the sixteen products.
-/

noncomputable section

namespace Cert.DecodeSpec

open Idealize.ShloMosaic Idealize.ShloMosaic.ValueIdx

/-- The embedding's shape, the result's, and the flattened result's. -/
abbrev SZ : Shape := ⟨2, ![8192, 16]⟩
abbrev SO : Shape := ⟨2, ![8192, 8192]⟩
abbrev SF : Shape := ⟨1, ![67108864]⟩

/-- Entry `(p, q)` of `z zᵀ`: the inner product of rows `p` and `q`. -/
def gramAt (z : SZ.Idx → EReal) (p q : Fin 8192) : EReal := ∑ k : Fin 16, z (ix2 p k) * z (ix2 q k)

/-- `z zᵀ`, index by index. -/
def gram (z : SZ.Idx → EReal) : SO.Idx → EReal := fun i => gramAt z (i 0) (i 1)

/-- Row and column of a flat index. -/
def rowOf (i : SF.Idx) : Fin 8192 := ⟨(i 0).val / 8192, by have h : (i 0).val < 67108864 := (i 0).isLt; omega⟩
def colOf (i : SF.Idx) : Fin 8192 := ⟨(i 0).val % 8192, by omega⟩

/-- `z zᵀ` flattened row by row. -/
def gramFlat (z : SZ.Idx → EReal) : SF.Idx → EReal := fun i => gramAt z (rowOf i) (colOf i)

end Cert.DecodeSpec

end
-- ==== Proof.BodyKernel.lean ====
import proofs.«167601_j63110249447564_1_alg».proof.Proof.Gen.Kernel.Launch
import proofs.«167601_j63110249447564_1_alg».proof.Proof.Gen.Kernel.Skeleton
import proofs.«167601_j63110249447564_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The decode kernel's body and its proof data

The program computes a node embedding `z : [8192, 16]` on the host, hands the SAME array `z` to the kernel
through two input windows — window 0 the row block `i` (1024 rows of `z`), window 1 the row block `j` — and the
kernel stores into block `(i, j)` of the `[8192, 8192]` result the product of block `i` with the transpose of
block `j`. This module holds what is the kernel's own: the arrays as the region finds them, each window's block
at a grid point, what the body leaves in the output buffer (one covering store of the matrix product), the
body's triple, and the pipeline's proof data — the two input windows holding the shared array at the two halves
of the full share.
-/

set_option maxRecDepth 16384

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The host lines before the region, in order: the stretch up to the ReLU, the ReLU's own three lines, and the
    stretch from it to the embedding `z`. -/
abbrev prefixOps : List (List (HloOp τ sig (Elt F))) := [hostOps0, hostOps0_1, hostOps0_2]

/-- Core `c`'s buffers when the region is entered: the launch contents after the host lines before it. -/
abbrev V0 (c : Dev nD) : Valuation τ sig (Elt F) :=
  StableHlo.after (prefixOps (F := F)).flatten (fun b => m (c, b))

/-- The same, read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (unfetched, the block
    index has not moved), for any proof data whose array is the region-entry one and whose body leaves the block
    in place. Window 0: the row block `i`. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1: the row block `j`. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole 1024 × 1024 output buffer, as one rectangle. -/
abbrev outRect : Rect S1024x1024 := Rect.unit (s := S1024x1024) ![0, 0] S1024x1024.size inb_S1024x1024_S1024x1024_0_0
/-- The whole 1024 × 16 input buffer, as one rectangle. -/
abbrev inRect : Rect S1024x16 := Rect.unit (s := S1024x16) ![0, 0] S1024x16.size inb_S1024x16_S1024x16_0_0

/-- The output buffer after the body, from the two input blocks: its one store, of the product of the first
    block with the transposed second. -/
def outBlock (x0 : Vec F S1024x16 .f32) (x1 : Vec F S1024x16 .f32) : Vec F S1024x1024 .f32 :=
  View.canon [⟨outRect, k0_pay1 (View.ld x0 inRect) (View.ld x1 inRect)⟩]

/-- The one store covers the buffer. -/
theorem outCover (p0 : Vec F S1024x1024 .f32) (y : S1024x1024.Idx) :
    ∃ pc ∈ ([⟨outRect, p0⟩] : List (View.Piece (Elt F) S1024x1024 .f32)), y ∈ pc.1.set :=
  View.cover_of_tiled [⟨outRect, p0⟩] S1024x1024.size (by rfl) y

/-! ## The body's triple -/

set_option maxHeartbeats 1000000 in
/-- The kernel body on whole staging memrefs, the inputs' at contents `x0`, `x1` and the output's at anything,
    runs to the continuation holding the inputs' as they were and the output's at `outBlock x0 x1`. -/
theorem sound_kernel (c : Dev nD) (E : Set ℕ) (i : grid0.Coords) (arg2 : Memref sig .tc .vmem S1024x16 .f32) (harg2 : arg2.IsWhole) (arg3 : Memref sig .tc .vmem S1024x16 .f32) (harg3 : arg3.IsWhole) (arg4 : Memref sig .tc .vmem S1024x1024 .f32) (harg4 : arg4.IsWhole)
    (x0 : Vec F S1024x16 .f32) (x1 : Vec F S1024x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The pipeline's proof data -/

/-- The proof data of the one pipeline on core `c`: the arrays as the region finds them; after the body at point
    `t` each input's buffer at its block and the output's at `outBlock` of the two; the invariant the scoped rest
    and the generator register, untouched; nothing owed. The two input windows read ONE array: each holds it at
    one half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlock (iblk m c 0 t) (iblk m c 1 t) := by dsimp only [dats]

theorem share0 (c : Dev nD) : (dats m 0 c).share 0 = fullShare.left := rfl
theorem share1 (c : Dev nD) : (dats m 0 c).share 1 = fullShare.right := rfl
theorem share2 (c : Dev nD) : (dats m 0 c).share 2 = fullShare := rfl

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Decode

end
-- ==== Proof.RunKernel.lean ====
import proofs.«167601_j63110249447564_1_alg».proof.Proof.BodyKernel

/-!
# The run of the decode program

@main is: the host lines that compute the embedding `z`, the kernel region, and one more host line, the
flattening of the region's result. The region reads `z` through two windows; the pipeline holds the one array
at the two halves of the full share, one per window, from the region's entry (where the full share is split) to
its exit. The line after the region reads the result array, which the pipeline held outright, and writes the
flattened copy; nothing else is touched. From this: every fair execution terminates, the argument arrays end as
launched, and the returned array is the flattening of what the write-backs left in the result array.
-/

set_option maxRecDepth 16384

noncomputable section

namespace Cert.Kernel.Decode

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host line after the region: the flattening. -/
abbrev suffixOps : List (List (HloOp τ sig (Elt F))) := [hostOps1]

/-- @main reduces to the region continued by the flattening, the buffers at what the lines before the region
    leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps suffixOps
    (by simp only [List.Forall]; exact ⟨hostOps0_sub, hostOps0_1_sub, hostOps0_2_sub⟩)
    (by simp only [List.Forall]; exact ⟨hostOps0_fresh, hostOps0_1_fresh, hostOps0_2_fresh⟩) main_chain

/-! ## The buffers at the end -/

/-- Core `c`'s buffers when the region is left: as it found them, but for the result array, which holds what the
    write-backs left. -/
def exitV (c : Dev nD) : Valuation τ sig (Elt F) :=
  Function.update (V0 m c) (Proc.devRef .tc main_v87) ((dats m 0 c).arrAt 2 cfg0.N)

/-- and at the end of @main: after the flattening. -/
def endV (c : Dev nD) (b : Ref sig .tc) : Buf (Elt F) ((c : Thread nD τ).loc b) :=
  StableHlo.after (hostOps1 (F := F)) (exitV m c) (Proc.devRef .tc b)

/-- The references that bypass the region, the flattened result among them. -/
abbrev rest : Finset (Ref sig .tc) := Pipeline.restRefs sig spec0

theorem v88_mem_rest : main_v88 ∈ rest := Pipeline.mem_restRefs_of main_v88 (by decide) (by decide)

/-! ## The pipeline's arrays and the bypassing buffers, opened -/

set_option maxHeartbeats 4000000 in
/-- The pipeline's arrays at any contents: the embedding at the left half of the full share for the first input
    window and at the right half for the second, the result array outright. -/
theorem arrays_open (c : Dev nD) (Fv : (w : Fin cfg0.W) → Buf (Elt F) ((cfg0.win w).arr.view.loc (c.tc : Thread nD τ))) :
    ((dats m 0 c).arrays Fv : sProp 𝕄)
      = iprop((((c.tc : Thread nD τ).loc (Pipeline.arrRef spec0 0)) ↦{fullShare.left} Fv 0)
          ∗ (((c.tc : Thread nD τ).loc (Pipeline.arrRef spec0 1)) ↦{fullShare.right} Fv 1)
          ∗ (((c.tc : Thread nD τ).loc (Pipeline.arrRef spec0 2)) ↦{fullShare} Fv 2)) := by
  unfold Dat.arrays
  rw [bigSep_W0, (arr_whole0 0).set_eq_univ, (arr_whole0 2).set_eq_univ, share0, share1, share2]

/-- The bypassing buffers at any contents: the flattened result's buffer, and the others. -/
theorem rest_open (c : Dev nD) (W : (b : Ref sig .tc) → Buf (Elt F) ((c.tc : Thread nD τ).loc b)) :
    (Pipeline.unscopedRest (Ix := Unit) (Name := ℕ) (U := UR sig nD τ) (Lvl := ℕ) spec0 c W : sProp 𝕄)
      = iprop((((c.tc : Thread nD τ).loc main_v88) ↦{fullShare} W main_v88)
          ∗ bigSep (rest.erase main_v88) fun b => (((c.tc : Thread nD τ).loc b) ↦{fullShare} W b : sProp 𝕄)) := by
  unfold Pipeline.unscopedRest
  exact bigSep_erase v88_mem_rest

/-- The two buffers the flattening touches. -/
abbrev tailSet : Finset (DevRef τ sig) := {Proc.devRef .tc main_v87, Proc.devRef .tc main_v88}

theorem held_tail (c : Dev nD) (W : Valuation τ sig (Elt F)) :
    (StableHlo.held (c.tc : Thread nD τ) tailSet W : sProp 𝕄)
      = iprop((((c.tc : Thread nD τ).loc main_v87) ↦{fullShare} W (Proc.devRef .tc main_v87))
          ∗ (((c.tc : Thread nD τ).loc main_v88) ↦{fullShare} W (Proc.devRef .tc main_v88))) := by
  unfold StableHlo.held tailSet
  rw [bigSep_insert (by decide), bigSep_singleton]
  rfl

/-- The flattening leaves the result array as the region left it, -/
theorem end_v87 (c : Dev nD) :
    StableHlo.after (hostOps1 (F := F)) (exitV m c) (Proc.devRef .tc main_v87) = (dats m 0 c).arrAt 2 cfg0.N := by
  unfold hostOps1
  rw [StableHlo.after_cons, StableHlo.after_nil, StableHlo.reshape_result_ne _ _ _ _ _ _ _ (show main_v87 ≠ main_v88 by decide)]
  unfold exitV
  exact Function.update_self _ _ _

/-- and every bypassing buffer but its own result as the region found it. -/
theorem end_rest (c : Dev nD) (b : Ref sig .tc) (hb : b ∈ rest.erase main_v88) : endV m c b = V m c b := by
  have h88 : b ≠ main_v88 := (Finset.mem_erase.mp hb).1
  have h87 : b ≠ main_v87 := fun h => by
    subst h
    exact absurd (Finset.mem_erase.mp hb).2 (by decide)
  unfold endV hostOps1
  rw [StableHlo.after_cons, StableHlo.after_nil, StableHlo.reshape_result_ne _ _ _ _ _ _ _ h88]
  unfold exitV
  exact Function.update_of_ne (fun h => h87 (Proc.devRef_injective _ h)) _ _

/-- The distinct buffers behind the windows' arrays: the embedding and the result array. -/
theorem arrBufs_open (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v86) ↦{fullShare} W main_v86) ∗ (((c.tc : Thread nD τ).loc main_v87) ↦{fullShare} W main_v87)) := by
  unfold Pipeline.arrBufs
  rw [show Finset.univ.image (Pipeline.arrRef spec0) = {main_v86, main_v87} from by decide, bigSep_insert (by decide), bigSep_singleton]
  rfl

/-- The two buffers the flattening touches, at named contents. -/
theorem held_tail_at (c : Dev nD) (W : Valuation τ sig (Elt F))
    (a : Buf (Elt F) ((c.tc : Thread nD τ).loc main_v87)) (b : Buf (Elt F) ((c.tc : Thread nD τ).loc main_v88))
    (ha : W (Proc.devRef .tc main_v87) = a) (hb : W (Proc.devRef .tc main_v88) = b) :
    (StableHlo.held (c.tc : Thread nD τ) tailSet W : sProp 𝕄)
      = iprop((((c.tc : Thread nD τ).loc main_v87) ↦{fullShare} a) ∗ (((c.tc : Thread nD τ).loc main_v88) ↦{fullShare} b)) := by
  subst ha hb
  exact held_tail c W

/-- When the region is left: the result array at what the write-backs left, the flattened result's buffer as the
    region found it. -/
theorem held_exit (c : Dev nD) :
    (StableHlo.held (c.tc : Thread nD τ) tailSet (exitV m c) : sProp 𝕄)
      = iprop((((c.tc : Thread nD τ).loc main_v87) ↦{fullShare} (dats m 0 c).arrAt 2 cfg0.N) ∗ (((c.tc : Thread nD τ).loc main_v88) ↦{fullShare} V m c main_v88)) :=
  held_tail_at c (exitV m c) _ _ (Function.update_self _ _ _) (Function.update_of_ne (by decide) _ _)

/-- After the flattening: the result array unchanged, the flattened result's buffer at its end contents. -/
theorem held_end (c : Dev nD) :
    (StableHlo.held (c.tc : Thread nD τ) tailSet (StableHlo.after (hostOps1 (F := F)) (exitV m c)) : sProp 𝕄)
      = iprop((((c.tc : Thread nD τ).loc main_v87) ↦{fullShare} (dats m 0 c).arrAt 2 cfg0.N) ∗ (((c.tc : Thread nD τ).loc main_v88) ↦{fullShare} endV m c main_v88)) :=
  held_tail_at c _ _ _ (end_v87 m c) (by unfold endV; rfl)

/-- The other bypassing buffers end as the region found them. -/
theorem rest_end (c : Dev nD) :
    (bigSep (rest.erase main_v88) fun b => (((c.tc : Thread nD τ).loc b) ↦{fullShare} endV m c b : sProp 𝕄))
      = bigSep (rest.erase main_v88) fun b => (((c.tc : Thread nD τ).loc b) ↦{fullShare} V m c b : sProp 𝕄) :=
  bigSep_congr fun b hb => by rw [end_rest m c b hb]

/-! ## The shared array's share, split at entry -/

set_option maxHeartbeats 1000000 in
/-- The buffers behind the windows' arrays, each whole at the full share, make the pipeline's arrays at entry: the
    embedding's full share splits into its halves, one per input window. -/
theorem entry_split (c : Dev nD) :
    (Pipeline.arrBufs spec0 c (V m c) : sProp 𝕄) ⊢ (dats m 0 c).arrays ((dats m 0 c).arrAt · 0) := by
  have e : ((dats m 0 c).arrAt · 0) = (dats m 0 c).A := rfl
  rw [e, arrays_open, arrBufs_open, A_eq m c 0, A_eq m c 1, A_eq m c 2]
  iintro ⟨H86, H87⟩
  ihave H := (pointsTo_share (PosShare.mem_left_op_right fullShare)).1 $$ H86
  icases H with ⟨Hl, Hr⟩
  isplitl [Hl]; · iexact Hl
  isplitl [Hr]; · iexact Hr
  iexact H87

/-! ## The flattening after the region -/

set_option maxHeartbeats 1000000 in
theorem tail_run (c : Dev nD) (Q' : PUnit → sProp 𝕄) :
    iprop((iprop((dats m 0 c).arrays ((dats m 0 c).arrAt · cfg0.N)
              ∗ (Pipeline.unscopedRest (Ix := Unit) (Name := ℕ) (U := UR sig nD τ) (Lvl := ℕ) spec0 c (endV m c) : sProp 𝕄)) -∗ Q' ⟨⟩)
        ∗ boundary (c.tc : Thread nD τ) ∗ (dats m 0 c).arrays ((dats m 0 c).arrAt · cfg0.N)
        ∗ (Pipeline.unscopedRest (Ix := Unit) (Name := ℕ) (U := UR sig nD τ) (Lvl := ℕ) spec0 c (V m c) : sProp 𝕄))
      ⊢ wp frame (wpE (defs (F := F)) (Variants.lift Variants.none) (c.tc : Thread nD τ) none) Set.univ (Pipeline.chain [StableHlo.seq (hostOps1 (F := F))]) Q' := by
  rw [arrays_open, rest_open c (V m c), rest_open c (endV m c), rest_end m c]
  simp only [Pipeline.chain_cons, Pipeline.chain_nil]
  iintro ⟨HQ, Hb, ⟨Hl, Hr, H87⟩, H88, Hrest⟩
  iapply (StableHlo.wp_seq (Variants.lift Variants.none) none Set.univ c tailSet _ (hostOps1 (F := F))
    (fun op hop => by
      simp only [hostOps1, List.mem_cons, List.mem_nil_iff, or_false] at hop
      subst hop
      rw [StableHlo.reshape_bufs])
    (fun op hop => (List.forall_iff_forall_mem.mp hostOps1_fresh) op hop) (exitV m c)) $$ [Hb H87 H88]
  · isplitl [Hb]; · iexact Hb
    rw [held_exit]
    isplitl [H87]; · iexact H87
    iexact H88
  rw [held_end]
  iintro ⟨Hb, H87, H88⟩
  rw [show (Pure.pure PUnit.unit : Prog (TpuEff nD τ sig (Elt F) (Pipeline.Sig Λ₀ (Fin 1) fun p => (pcfgs (F := F) p).Adm) .tc) PUnit) = Prog.ret ⟨⟩ from rfl, wp_ret]; imodintro
  iapply HQ
  isplitl [Hl Hr H87]
  · isplitl [Hl]; · iexact Hl
    isplitl [Hr]; · iexact Hr
    iexact H87
  isplitl [H88]; · iexact H88
  iexact Hrest

/-! ## The run -/

/-- What the run ends in: every array of the pipeline at what the write-backs left, every other unscoped buffer at
    its contents after the flattening. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ rest, r.2.mem ((c.tc : Thread nD τ).loc b) = endV m c b

set_option maxHeartbeats 4000000 in
set_option backward.isDefEq.respectTransparency.types false in
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq (hostOps1 (F := F))]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (endV m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_run m)
    (QY := fun c s => ∀ b ∈ rest, s.mem ((c.tc : Thread nD τ).loc b) = endV m c b)
    (hY := fun c s' => by
      iintro ⟨-, HU, HSI⟩
      unfold Pipeline.unscopedRest
      imodintro
      iapply (pointsTo_read_all rest (fun b => (c.tc : Thread nD τ).loc b) (endV m c) s')
      isplitl [HU] <;> iassumption)
    (hQ := fun s h c => ⟨(h c).1, (h c).2.2⟩)

/-! ## What the run leaves: the arguments, and the returned array -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A bypassing buffer other than the flattened result, unwritten before the region, ends as launched. -/
theorem kept_of (c : Dev nD) (b : Ref sig .tc) (hb : b ∈ rest) (hb88 : b ≠ main_v88) (hV : V m c b = m ((c : Thread nD τ).loc b))
    {r : PUnit × MemSt nD τ sig (Elt F)} (h : RunPost m r) : r.2.mem ((c.tc : Thread nD τ).loc b) = m ((c.tc : Thread nD τ).loc b) :=
  ((h c).2 b hb).trans ((end_rest m c b (Finset.mem_erase.mpr ⟨hb88, hb⟩)).trans hV)

/-- The argument arrays end as launched. -/
theorem kept_args (c : Dev nD) {r : PUnit × MemSt nD τ sig (Elt F)} (h : RunPost m r) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9) :=
  ⟨kept_of m c main_arg0 (Pipeline.mem_restRefs_of main_arg0 (by decide) (by decide)) (by decide) (V_main_arg0 m c) h,
    kept_of m c main_arg1 (Pipeline.mem_restRefs_of main_arg1 (by decide) (by decide)) (by decide) (V_main_arg1 m c) h,
    kept_of m c main_arg2 (Pipeline.mem_restRefs_of main_arg2 (by decide) (by decide)) (by decide) (V_main_arg2 m c) h,
    kept_of m c main_arg3 (Pipeline.mem_restRefs_of main_arg3 (by decide) (by decide)) (by decide) (V_main_arg3 m c) h,
    kept_of m c main_arg4 (Pipeline.mem_restRefs_of main_arg4 (by decide) (by decide)) (by decide) (V_main_arg4 m c) h,
    kept_of m c main_arg5 (Pipeline.mem_restRefs_of main_arg5 (by decide) (by decide)) (by decide) (V_main_arg5 m c) h,
    kept_of m c main_arg6 (Pipeline.mem_restRefs_of main_arg6 (by decide) (by decide)) (by decide) (V_main_arg6 m c) h,
    kept_of m c main_arg7 (Pipeline.mem_restRefs_of main_arg7 (by decide) (by decide)) (by decide) (V_main_arg7 m c) h,
    kept_of m c main_arg8 (Pipeline.mem_restRefs_of main_arg8 (by decide) (by decide)) (by decide) (V_main_arg8 m c) h,
    kept_of m c main_arg9 (Pipeline.mem_restRefs_of main_arg9 (by decide) (by decide)) (by decide) (V_main_arg9 m c) h⟩

/-- The returned array is the flattening of what the write-backs left in the result array. -/
theorem result_of (c : Dev nD) {r : PUnit × MemSt nD τ sig (Elt F)} (h : RunPost m r) :
    r.2.mem ((c.tc : Thread nD τ).loc main_v88) = shapeCast S67108864 ((dats m 0 c).arrAt 2 cfg0.N) shapeCasts_S8192x8192_S67108864 := by
  refine ((h c).2 main_v88 v88_mem_rest).trans ?_
  unfold endV hostOps1
  rw [StableHlo.after_cons, StableHlo.after_nil, StableHlo.reshape_result']
  unfold exitV
  rw [Function.update_self]
  rfl

/-- Every fair execution of @main terminates, faults nowhere, and leaves the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => kept_args m c h) (run_main m ρ)

end Cert.Kernel.Decode

end
-- ==== Proof.BodyKernelIdeal.lean ====
import proofs.«167601_j63110249447564_1_alg».proof.Proof.Gen.KernelIdeal.Launch
import proofs.«167601_j63110249447564_1_alg».proof.Proof.Gen.KernelIdeal.Skeleton
import proofs.«167601_j63110249447564_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The decode kernel's body and its proof data

The program computes a node embedding `z : [8192, 16]` on the host, hands the SAME array `z` to the kernel
through two input windows — window 0 the row block `i` (1024 rows of `z`), window 1 the row block `j` — and the
kernel stores into block `(i, j)` of the `[8192, 8192]` result the product of block `i` with the transpose of
block `j`. This module holds what is the kernel's own: the arrays as the region finds them, each window's block
at a grid point, what the body leaves in the output buffer (one covering store of the matrix product), the
body's triple, and the pipeline's proof data — the two input windows holding the shared array at the two halves
of the full share.
-/

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The host lines before the region, in order: the stretch up to the ReLU, the ReLU's own three lines, and the
    stretch from it to the embedding `z`. -/
abbrev prefixOps : List (List (HloOp τ sig (Elt F))) := [hostOps0, hostOps0_1, hostOps0_2]

/-- Core `c`'s buffers when the region is entered: the launch contents after the host lines before it. -/
abbrev V0 (c : Dev nD) : Valuation τ sig (Elt F) :=
  StableHlo.after (prefixOps (F := F)).flatten (fun b => m (c, b))

/-- The same, read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (unfetched, the block
    index has not moved), for any proof data whose array is the region-entry one and whose body leaves the block
    in place. Window 0: the row block `i`. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1: the row block `j`. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole 1024 × 1024 output buffer, as one rectangle. -/
abbrev outRect : Rect S1024x1024 := Rect.unit (s := S1024x1024) ![0, 0] S1024x1024.size inb_S1024x1024_S1024x1024_0_0
/-- The whole 1024 × 16 input buffer, as one rectangle. -/
abbrev inRect : Rect S1024x16 := Rect.unit (s := S1024x16) ![0, 0] S1024x16.size inb_S1024x16_S1024x16_0_0

/-- The output buffer after the body, from the two input blocks: its one store, of the product of the first
    block with the transposed second. -/
def outBlock (x0 : Vec F S1024x16 .f32) (x1 : Vec F S1024x16 .f32) : Vec F S1024x1024 .f32 :=
  View.canon [⟨outRect, k0_pay1 (View.ld x0 inRect) (View.ld x1 inRect)⟩]

/-- The one store covers the buffer. -/
theorem outCover (p0 : Vec F S1024x1024 .f32) (y : S1024x1024.Idx) :
    ∃ pc ∈ ([⟨outRect, p0⟩] : List (View.Piece (Elt F) S1024x1024 .f32)), y ∈ pc.1.set :=
  View.cover_of_tiled [⟨outRect, p0⟩] S1024x1024.size (by rfl) y

/-! ## The body's triple -/

set_option maxHeartbeats 1000000 in
/-- The kernel body on whole staging memrefs, the inputs' at contents `x0`, `x1` and the output's at anything,
    runs to the continuation holding the inputs' as they were and the output's at `outBlock x0 x1`. -/
theorem sound_kernel (c : Dev nD) (E : Set ℕ) (i : grid0.Coords) (arg2 : Memref sig .tc .vmem S1024x16 .f32) (harg2 : arg2.IsWhole) (arg3 : Memref sig .tc .vmem S1024x16 .f32) (harg3 : arg3.IsWhole) (arg4 : Memref sig .tc .vmem S1024x1024 .f32) (harg4 : arg4.IsWhole)
    (x0 : Vec F S1024x16 .f32) (x1 : Vec F S1024x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The pipeline's proof data -/

/-- The proof data of the one pipeline on core `c`: the arrays as the region finds them; after the body at point
    `t` each input's buffer at its block and the output's at `outBlock` of the two; the invariant the scoped rest
    and the generator register, untouched; nothing owed. The two input windows read ONE array: each holds it at
    one half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlock (iblk m c 0 t) (iblk m c 1 t) := by dsimp only [dats]

theorem share0 (c : Dev nD) : (dats m 0 c).share 0 = fullShare.left := rfl
theorem share1 (c : Dev nD) : (dats m 0 c).share 1 = fullShare.right := rfl
theorem share2 (c : Dev nD) : (dats m 0 c).share 2 = fullShare := rfl

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Decode

end
-- ==== Proof.RunKernelIdeal.lean ====
import proofs.«167601_j63110249447564_1_alg».proof.Proof.BodyKernelIdeal

/-!
# The run of the decode program

@main is: the host lines that compute the embedding `z`, the kernel region, and one more host line, the
flattening of the region's result. The region reads `z` through two windows; the pipeline holds the one array
at the two halves of the full share, one per window, from the region's entry (where the full share is split) to
its exit. The line after the region reads the result array, which the pipeline held outright, and writes the
flattened copy; nothing else is touched. From this: every fair execution terminates, the argument arrays end as
launched, and the returned array is the flattening of what the write-backs left in the result array.
-/

set_option maxRecDepth 16384

noncomputable section

namespace Cert.KernelIdeal.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host line after the region: the flattening. -/
abbrev suffixOps : List (List (HloOp τ sig (Elt F))) := [hostOps1]

/-- @main reduces to the region continued by the flattening, the buffers at what the lines before the region
    leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps suffixOps
    (by simp only [List.Forall]; exact ⟨hostOps0_sub, hostOps0_1_sub, hostOps0_2_sub⟩)
    (by simp only [List.Forall]; exact ⟨hostOps0_fresh, hostOps0_1_fresh, hostOps0_2_fresh⟩) main_chain

/-! ## The buffers at the end -/

/-- Core `c`'s buffers when the region is left: as it found them, but for the result array, which holds what the
    write-backs left. -/
def exitV (c : Dev nD) : Valuation τ sig (Elt F) :=
  Function.update (V0 m c) (Proc.devRef .tc main_v87) ((dats m 0 c).arrAt 2 cfg0.N)

/-- and at the end of @main: after the flattening. -/
def endV (c : Dev nD) (b : Ref sig .tc) : Buf (Elt F) ((c : Thread nD τ).loc b) :=
  StableHlo.after (hostOps1 (F := F)) (exitV m c) (Proc.devRef .tc b)

/-- The references that bypass the region, the flattened result among them. -/
abbrev rest : Finset (Ref sig .tc) := Pipeline.restRefs sig spec0

theorem v88_mem_rest : main_v88 ∈ rest := Pipeline.mem_restRefs_of main_v88 (by decide) (by decide)

/-! ## The pipeline's arrays and the bypassing buffers, opened -/

set_option maxHeartbeats 4000000 in
/-- The pipeline's arrays at any contents: the embedding at the left half of the full share for the first input
    window and at the right half for the second, the result array outright. -/
theorem arrays_open (c : Dev nD) (Fv : (w : Fin cfg0.W) → Buf (Elt F) ((cfg0.win w).arr.view.loc (c.tc : Thread nD τ))) :
    ((dats m 0 c).arrays Fv : sProp 𝕄)
      = iprop((((c.tc : Thread nD τ).loc (Pipeline.arrRef spec0 0)) ↦{fullShare.left} Fv 0)
          ∗ (((c.tc : Thread nD τ).loc (Pipeline.arrRef spec0 1)) ↦{fullShare.right} Fv 1)
          ∗ (((c.tc : Thread nD τ).loc (Pipeline.arrRef spec0 2)) ↦{fullShare} Fv 2)) := by
  unfold Dat.arrays
  rw [bigSep_W0, (arr_whole0 0).set_eq_univ, (arr_whole0 2).set_eq_univ, share0, share1, share2]

/-- The bypassing buffers at any contents: the flattened result's buffer, and the others. -/
theorem rest_open (c : Dev nD) (W : (b : Ref sig .tc) → Buf (Elt F) ((c.tc : Thread nD τ).loc b)) :
    (Pipeline.unscopedRest (Ix := Unit) (Name := ℕ) (U := UR sig nD τ) (Lvl := ℕ) spec0 c W : sProp 𝕄)
      = iprop((((c.tc : Thread nD τ).loc main_v88) ↦{fullShare} W main_v88)
          ∗ bigSep (rest.erase main_v88) fun b => (((c.tc : Thread nD τ).loc b) ↦{fullShare} W b : sProp 𝕄)) := by
  unfold Pipeline.unscopedRest
  exact bigSep_erase v88_mem_rest

/-- The two buffers the flattening touches. -/
abbrev tailSet : Finset (DevRef τ sig) := {Proc.devRef .tc main_v87, Proc.devRef .tc main_v88}

theorem held_tail (c : Dev nD) (W : Valuation τ sig (Elt F)) :
    (StableHlo.held (c.tc : Thread nD τ) tailSet W : sProp 𝕄)
      = iprop((((c.tc : Thread nD τ).loc main_v87) ↦{fullShare} W (Proc.devRef .tc main_v87))
          ∗ (((c.tc : Thread nD τ).loc main_v88) ↦{fullShare} W (Proc.devRef .tc main_v88))) := by
  unfold StableHlo.held tailSet
  rw [bigSep_insert (by decide), bigSep_singleton]
  rfl

/-- The flattening leaves the result array as the region left it, -/
theorem end_v87 (c : Dev nD) :
    StableHlo.after (hostOps1 (F := F)) (exitV m c) (Proc.devRef .tc main_v87) = (dats m 0 c).arrAt 2 cfg0.N := by
  unfold hostOps1
  rw [StableHlo.after_cons, StableHlo.after_nil, StableHlo.reshape_result_ne _ _ _ _ _ _ _ (show main_v87 ≠ main_v88 by decide)]
  unfold exitV
  exact Function.update_self _ _ _

/-- and every bypassing buffer but its own result as the region found it. -/
theorem end_rest (c : Dev nD) (b : Ref sig .tc) (hb : b ∈ rest.erase main_v88) : endV m c b = V m c b := by
  have h88 : b ≠ main_v88 := (Finset.mem_erase.mp hb).1
  have h87 : b ≠ main_v87 := fun h => by
    subst h
    exact absurd (Finset.mem_erase.mp hb).2 (by decide)
  unfold endV hostOps1
  rw [StableHlo.after_cons, StableHlo.after_nil, StableHlo.reshape_result_ne _ _ _ _ _ _ _ h88]
  unfold exitV
  exact Function.update_of_ne (fun h => h87 (Proc.devRef_injective _ h)) _ _

/-- The distinct buffers behind the windows' arrays: the embedding and the result array. -/
theorem arrBufs_open (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v86) ↦{fullShare} W main_v86) ∗ (((c.tc : Thread nD τ).loc main_v87) ↦{fullShare} W main_v87)) := by
  unfold Pipeline.arrBufs
  rw [show Finset.univ.image (Pipeline.arrRef spec0) = {main_v86, main_v87} from by decide, bigSep_insert (by decide), bigSep_singleton]
  rfl

/-- The two buffers the flattening touches, at named contents. -/
theorem held_tail_at (c : Dev nD) (W : Valuation τ sig (Elt F))
    (a : Buf (Elt F) ((c.tc : Thread nD τ).loc main_v87)) (b : Buf (Elt F) ((c.tc : Thread nD τ).loc main_v88))
    (ha : W (Proc.devRef .tc main_v87) = a) (hb : W (Proc.devRef .tc main_v88) = b) :
    (StableHlo.held (c.tc : Thread nD τ) tailSet W : sProp 𝕄)
      = iprop((((c.tc : Thread nD τ).loc main_v87) ↦{fullShare} a) ∗ (((c.tc : Thread nD τ).loc main_v88) ↦{fullShare} b)) := by
  subst ha hb
  exact held_tail c W

/-- When the region is left: the result array at what the write-backs left, the flattened result's buffer as the
    region found it. -/
theorem held_exit (c : Dev nD) :
    (StableHlo.held (c.tc : Thread nD τ) tailSet (exitV m c) : sProp 𝕄)
      = iprop((((c.tc : Thread nD τ).loc main_v87) ↦{fullShare} (dats m 0 c).arrAt 2 cfg0.N) ∗ (((c.tc : Thread nD τ).loc main_v88) ↦{fullShare} V m c main_v88)) :=
  held_tail_at c (exitV m c) _ _ (Function.update_self _ _ _) (Function.update_of_ne (by decide) _ _)

/-- After the flattening: the result array unchanged, the flattened result's buffer at its end contents. -/
theorem held_end (c : Dev nD) :
    (StableHlo.held (c.tc : Thread nD τ) tailSet (StableHlo.after (hostOps1 (F := F)) (exitV m c)) : sProp 𝕄)
      = iprop((((c.tc : Thread nD τ).loc main_v87) ↦{fullShare} (dats m 0 c).arrAt 2 cfg0.N) ∗ (((c.tc : Thread nD τ).loc main_v88) ↦{fullShare} endV m c main_v88)) :=
  held_tail_at c _ _ _ (end_v87 m c) (by unfold endV; rfl)

/-- The other bypassing buffers end as the region found them. -/
theorem rest_end (c : Dev nD) :
    (bigSep (rest.erase main_v88) fun b => (((c.tc : Thread nD τ).loc b) ↦{fullShare} endV m c b : sProp 𝕄))
      = bigSep (rest.erase main_v88) fun b => (((c.tc : Thread nD τ).loc b) ↦{fullShare} V m c b : sProp 𝕄) :=
  bigSep_congr fun b hb => by rw [end_rest m c b hb]

/-! ## The shared array's share, split at entry -/

set_option maxHeartbeats 1000000 in
/-- The buffers behind the windows' arrays, each whole at the full share, make the pipeline's arrays at entry: the
    embedding's full share splits into its halves, one per input window. -/
theorem entry_split (c : Dev nD) :
    (Pipeline.arrBufs spec0 c (V m c) : sProp 𝕄) ⊢ (dats m 0 c).arrays ((dats m 0 c).arrAt · 0) := by
  have e : ((dats m 0 c).arrAt · 0) = (dats m 0 c).A := rfl
  rw [e, arrays_open, arrBufs_open, A_eq m c 0, A_eq m c 1, A_eq m c 2]
  iintro ⟨H86, H87⟩
  ihave H := (pointsTo_share (PosShare.mem_left_op_right fullShare)).1 $$ H86
  icases H with ⟨Hl, Hr⟩
  isplitl [Hl]; · iexact Hl
  isplitl [Hr]; · iexact Hr
  iexact H87

/-! ## The flattening after the region -/

set_option maxHeartbeats 1000000 in
theorem tail_run (c : Dev nD) (Q' : PUnit → sProp 𝕄) :
    iprop((iprop((dats m 0 c).arrays ((dats m 0 c).arrAt · cfg0.N)
              ∗ (Pipeline.unscopedRest (Ix := Unit) (Name := ℕ) (U := UR sig nD τ) (Lvl := ℕ) spec0 c (endV m c) : sProp 𝕄)) -∗ Q' ⟨⟩)
        ∗ boundary (c.tc : Thread nD τ) ∗ (dats m 0 c).arrays ((dats m 0 c).arrAt · cfg0.N)
        ∗ (Pipeline.unscopedRest (Ix := Unit) (Name := ℕ) (U := UR sig nD τ) (Lvl := ℕ) spec0 c (V m c) : sProp 𝕄))
      ⊢ wp frame (wpE (defs (F := F)) (Variants.lift Variants.none) (c.tc : Thread nD τ) none) Set.univ (Pipeline.chain [StableHlo.seq (hostOps1 (F := F))]) Q' := by
  rw [arrays_open, rest_open c (V m c), rest_open c (endV m c), rest_end m c]
  simp only [Pipeline.chain_cons, Pipeline.chain_nil]
  iintro ⟨HQ, Hb, ⟨Hl, Hr, H87⟩, H88, Hrest⟩
  iapply (StableHlo.wp_seq (Variants.lift Variants.none) none Set.univ c tailSet _ (hostOps1 (F := F))
    (fun op hop => by
      simp only [hostOps1, List.mem_cons, List.mem_nil_iff, or_false] at hop
      subst hop
      rw [StableHlo.reshape_bufs])
    (fun op hop => (List.forall_iff_forall_mem.mp hostOps1_fresh) op hop) (exitV m c)) $$ [Hb H87 H88]
  · isplitl [Hb]; · iexact Hb
    rw [held_exit]
    isplitl [H87]; · iexact H87
    iexact H88
  rw [held_end]
  iintro ⟨Hb, H87, H88⟩
  rw [show (Pure.pure PUnit.unit : Prog (TpuEff nD τ sig (Elt F) (Pipeline.Sig Λ₀ (Fin 1) fun p => (pcfgs (F := F) p).Adm) .tc) PUnit) = Prog.ret ⟨⟩ from rfl, wp_ret]; imodintro
  iapply HQ
  isplitl [Hl Hr H87]
  · isplitl [Hl]; · iexact Hl
    isplitl [Hr]; · iexact Hr
    iexact H87
  isplitl [H88]; · iexact H88
  iexact Hrest

/-! ## The run -/

/-- What the run ends in: every array of the pipeline at what the write-backs left, every other unscoped buffer at
    its contents after the flattening. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ rest, r.2.mem ((c.tc : Thread nD τ).loc b) = endV m c b

set_option maxHeartbeats 4000000 in
set_option backward.isDefEq.respectTransparency.types false in
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq (hostOps1 (F := F))]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (endV m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_run m)
    (QY := fun c s => ∀ b ∈ rest, s.mem ((c.tc : Thread nD τ).loc b) = endV m c b)
    (hY := fun c s' => by
      iintro ⟨-, HU, HSI⟩
      unfold Pipeline.unscopedRest
      imodintro
      iapply (pointsTo_read_all rest (fun b => (c.tc : Thread nD τ).loc b) (endV m c) s')
      isplitl [HU] <;> iassumption)
    (hQ := fun s h c => ⟨(h c).1, (h c).2.2⟩)

/-! ## What the run leaves: the arguments, and the returned array -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A bypassing buffer other than the flattened result, unwritten before the region, ends as launched. -/
theorem kept_of (c : Dev nD) (b : Ref sig .tc) (hb : b ∈ rest) (hb88 : b ≠ main_v88) (hV : V m c b = m ((c : Thread nD τ).loc b))
    {r : PUnit × MemSt nD τ sig (Elt F)} (h : RunPost m r) : r.2.mem ((c.tc : Thread nD τ).loc b) = m ((c.tc : Thread nD τ).loc b) :=
  ((h c).2 b hb).trans ((end_rest m c b (Finset.mem_erase.mpr ⟨hb88, hb⟩)).trans hV)

/-- The argument arrays end as launched. -/
theorem kept_args (c : Dev nD) {r : PUnit × MemSt nD τ sig (Elt F)} (h : RunPost m r) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9) :=
  ⟨kept_of m c main_arg0 (Pipeline.mem_restRefs_of main_arg0 (by decide) (by decide)) (by decide) (V_main_arg0 m c) h,
    kept_of m c main_arg1 (Pipeline.mem_restRefs_of main_arg1 (by decide) (by decide)) (by decide) (V_main_arg1 m c) h,
    kept_of m c main_arg2 (Pipeline.mem_restRefs_of main_arg2 (by decide) (by decide)) (by decide) (V_main_arg2 m c) h,
    kept_of m c main_arg3 (Pipeline.mem_restRefs_of main_arg3 (by decide) (by decide)) (by decide) (V_main_arg3 m c) h,
    kept_of m c main_arg4 (Pipeline.mem_restRefs_of main_arg4 (by decide) (by decide)) (by decide) (V_main_arg4 m c) h,
    kept_of m c main_arg5 (Pipeline.mem_restRefs_of main_arg5 (by decide) (by decide)) (by decide) (V_main_arg5 m c) h,
    kept_of m c main_arg6 (Pipeline.mem_restRefs_of main_arg6 (by decide) (by decide)) (by decide) (V_main_arg6 m c) h,
    kept_of m c main_arg7 (Pipeline.mem_restRefs_of main_arg7 (by decide) (by decide)) (by decide) (V_main_arg7 m c) h,
    kept_of m c main_arg8 (Pipeline.mem_restRefs_of main_arg8 (by decide) (by decide)) (by decide) (V_main_arg8 m c) h,
    kept_of m c main_arg9 (Pipeline.mem_restRefs_of main_arg9 (by decide) (by decide)) (by decide) (V_main_arg9 m c) h⟩

/-- The returned array is the flattening of what the write-backs left in the result array. -/
theorem result_of (c : Dev nD) {r : PUnit × MemSt nD τ sig (Elt F)} (h : RunPost m r) :
    r.2.mem ((c.tc : Thread nD τ).loc main_v88) = shapeCast S67108864 ((dats m 0 c).arrAt 2 cfg0.N) shapeCasts_S8192x8192_S67108864 := by
  refine ((h c).2 main_v88 v88_mem_rest).trans ?_
  unfold endV hostOps1
  rw [StableHlo.after_cons, StableHlo.after_nil, StableHlo.reshape_result']
  unfold exitV
  rw [Function.update_self]
  rfl

/-- Every fair execution of @main terminates, faults nowhere, and leaves the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => kept_args m c h) (run_main m ρ)

end Cert.KernelIdeal.Decode

end
-- ==== Proof.KernelValue.lean ====
import proofs.«167601_j63110249447564_1_alg».proof.Proof.BodyKernelIdeal
import proofs.«167601_j63110249447564_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The kernel's result array is the Gram matrix of the embedding

Over the extended reals the body's matrix product of a 1024 × 16 block with the transpose of another is, entry
by entry, the sum of the sixteen products of the two rows. Window 0 stages row block `i` of the embedding `z`,
window 1 row block `j` of the SAME array, and the body's one store fills block `(i, j)` of the result; so what
point `(i, j)` writes back is block `(i, j)` of `z zᵀ`. The 8 × 8 blocks tile the 8192 × 8192 result, hence the
result array ends holding `z zᵀ`.
-/

set_option maxRecDepth 16384

noncomputable section

namespace Cert.KernelIdeal.DecodeValue

open Cert.KernelIdeal Cert.KernelIdeal.Gen Cert.KernelIdeal.Decode
open Idealize.ShloMosaic Idealize.ShloMosaic.TcCoe Idealize.ShloMosaic.ValueIdx
open Idealize.SL.Sem
open Idealize.ShloMosaic.Pipeline (Dat)
open Cert.DecodeSpec

/-! ## The body's matrix product, entry by entry -/

/-- The left operand is read at the output's row: its non-contracted axis. -/
theorem lhs_row (i : S1024x1024.Idx) (q : Cert.KernelIdeal.dot_S1024x16_S16x1024_S1024x1024_1_0_0_1_n_n.contr.Idx) :
    (Cert.KernelIdeal.dot_S1024x16_S16x1024_S1024x1024_1_0_0_1_n_n.lhsIdx i q 0).val = (i 0).val := by
  unfold DotDims.lhsIdx
  rw [dif_neg (show ¬(0 : Fin S1024x16.rank) ∈ Cert.KernelIdeal.dot_S1024x16_S16x1024_S1024x1024_1_0_0_1_n_n.lhsBatch by decide), dif_pos (show (0 : Fin S1024x16.rank) ∈ Cert.KernelIdeal.dot_S1024x16_S16x1024_S1024x1024_1_0_0_1_n_n.lhsNonContracting by decide)]
  rfl
/-- … and at the contraction index on its second axis. -/
theorem lhs_contr (i : S1024x1024.Idx) (q : Cert.KernelIdeal.dot_S1024x16_S16x1024_S1024x1024_1_0_0_1_n_n.contr.Idx) :
    (Cert.KernelIdeal.dot_S1024x16_S16x1024_S1024x1024_1_0_0_1_n_n.lhsIdx i q 1).val = (q ⟨0, by decide⟩).val :=
  Cert.KernelIdeal.dot_S1024x16_S16x1024_S1024x1024_1_0_0_1_n_n.lhsIdx_val_of_single rfl i q
/-- The right operand is read at the contraction index on its first axis, -/
theorem rhs_contr (i : S1024x1024.Idx) (q : Cert.KernelIdeal.dot_S1024x16_S16x1024_S1024x1024_1_0_0_1_n_n.contr.Idx) :
    (Cert.KernelIdeal.dot_S1024x16_S16x1024_S1024x1024_1_0_0_1_n_n.rhsIdx i q 0).val = (q ⟨0, by decide⟩).val :=
  Cert.KernelIdeal.dot_S1024x16_S16x1024_S1024x1024_1_0_0_1_n_n.rhsIdx_val_of_single rfl i q
/-- … and at the output's column on its second. -/
theorem rhs_col (i : S1024x1024.Idx) (q : Cert.KernelIdeal.dot_S1024x16_S16x1024_S1024x1024_1_0_0_1_n_n.contr.Idx) :
    (Cert.KernelIdeal.dot_S1024x16_S16x1024_S1024x1024_1_0_0_1_n_n.rhsIdx i q 1).val = (i 1).val := by
  unfold DotDims.rhsIdx
  rw [dif_neg (show ¬(1 : Fin S16x1024.rank) ∈ Cert.KernelIdeal.dot_S1024x16_S16x1024_S1024x1024_1_0_0_1_n_n.rhsBatch by decide), dif_pos (show (1 : Fin S16x1024.rank) ∈ Cert.KernelIdeal.dot_S1024x16_S16x1024_S1024x1024_1_0_0_1_n_n.rhsNonContracting by decide)]
  rfl

/-- The product of a 1024 × 16 matrix with a 16 × 1024 one into the zero accumulator, entry `(p, q)`: the sum over
    the sixteen contraction indices. -/
theorem matmul_entry (a : FVec Ideal S1024x16 .bf16) (b : FVec Ideal S16x1024 .bf16) (p q : Fin 1024) :
    matmul Cert.KernelIdeal.dot_S1024x16_S16x1024_S1024x1024_1_0_0_1_n_n none a b (constant (F := Ideal) S1024x1024 .f32 0x00000000#32) (ix2 p q)
      = ∑ k : Fin 16, a (ix2 p k) * b (ix2 k q) := by
  show FloatOps.matmul Cert.KernelIdeal.dot_S1024x16_S16x1024_S1024x1024_1_0_0_1_n_n none a b (constant (F := Ideal) S1024x1024 .f32 0x00000000#32) (ix2 p q) = _
  rw [Ideal.matmul_constant_zero_apply, ← Equiv.sum_comp (ValueIdx.contrEquiv1 Cert.KernelIdeal.dot_S1024x16_S16x1024_S1024x1024_1_0_0_1_n_n 16 rfl rfl).symm]
  refine Finset.sum_congr rfl fun k _ => ?_
  have hk := ValueIdx.contrEquiv1_symm_val Cert.KernelIdeal.dot_S1024x16_S16x1024_S1024x1024_1_0_0_1_n_n 16 rfl rfl k
  have el : Cert.KernelIdeal.dot_S1024x16_S16x1024_S1024x1024_1_0_0_1_n_n.lhsIdx (ix2 p q) ((ValueIdx.contrEquiv1 Cert.KernelIdeal.dot_S1024x16_S16x1024_S1024x1024_1_0_0_1_n_n 16 rfl rfl).symm k) = ix2 p k := funext fun a => Fin.ext (by
    match a with
    | ⟨0, _⟩ => exact lhs_row _ _
    | ⟨1, _⟩ => exact (lhs_contr _ _).trans hk)
  have er : Cert.KernelIdeal.dot_S1024x16_S16x1024_S1024x1024_1_0_0_1_n_n.rhsIdx (ix2 p q) ((ValueIdx.contrEquiv1 Cert.KernelIdeal.dot_S1024x16_S16x1024_S1024x1024_1_0_0_1_n_n 16 rfl rfl).symm k) = ix2 k q := funext fun a => Fin.ext (by
    match a with
    | ⟨0, _⟩ => exact (rhs_contr _ _).trans hk
    | ⟨1, _⟩ => exact rhs_col _ _)
  rw [el, er]

/-- The body's payload at entry `(p, q)`: the inner product of row `p` of the first block with row `q` of the
    second. Casting a shape to itself and narrowing the float format change nothing over the extended reals; the
    transpose swaps the second operand's coordinates. -/
theorem payload_entry (x0 x1 : Vec Ideal S1024x16 .f32) (p q : Fin 1024) :
    k0_pay1 x0 x1 (ix2 p q) = ∑ k : Fin 16, x0 (ix2 p k) * x1 (ix2 q k) := by
  unfold k0_pay1
  rw [matmul_entry]
  refine Finset.sum_congr rfl fun k _ => ?_
  rw [transpose_apply [1, 0] _ transposes_S1024x16_p1_0_S16x1024 (ix2 k q) (ix2 q k) (fun b => match b with
    | ⟨0, _⟩ => rfl
    | ⟨1, _⟩ => rfl)]
  simp only [truncf_apply, shapeCast_self]

/-! ## The output buffer after the body, entry by entry -/

theorem zero_offsets : (![0, 0] : Fin 2 → Nat) = fun _ => 0 := funext fun a => by fin_cases a <;> rfl

/-- The body's one store covers the output buffer and its two loads read the whole input buffers, so the buffer
    after the body holds the inner products of the rows of the two input blocks. -/
theorem outBlock_apply (x0 x1 : Vec Ideal S1024x16 .f32) (y : S1024x1024.Idx) :
    outBlock x0 x1 y = ∑ k : Fin 16, x0 (ix2 (y 0) k) * x1 (ix2 (y 1) k) := by
  obtain ⟨p, q, rfl⟩ : ∃ (p : Fin 1024) (q : Fin 1024), y = ix2 p q := ⟨y 0, y 1, eq_ix2 y⟩
  unfold outBlock
  rw [View.canon_unit_zero zero_offsets]
  simp only [View.ld_unit_zero (S := S1024x16) zero_offsets]
  exact payload_entry x0 x1 p q

/-! ## The blocks the windows stage -/

variable (m : (ℓ : Loc nD τ sig) → Buf (Elt Ideal) ℓ)

/-- The embedding as the region finds it. -/
abbrev Z (c : Dev nD) : SZ.Idx → EReal := V (F := Ideal) m c main_v86

/-- The index maps, decided over the 8 × 8 grid: at point `t = 8 i + j` window 0 stages row block `i` and window 1
    row block `j` of the embedding, and the output window block `(i, j)` of the result. -/
theorem block_indices : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

/-- Window 0's block at point `t`, entry `x`: the embedding at row `(t / 8) · 1024 + x₀`. -/
theorem rowBlock_apply (c : Dev nD) (t : Fin cfg0.N) (x : S1024x16.Idx) (k : S8192x16.Idx)
    (hk0 : (k 0).val = t.val / 8 * 1024 + (x 0).val) (hk1 : (k 1).val = (x 1).val) :
    (iblk (F := Ideal) m c 0 t : Vec Ideal S1024x16 .f32) x = Z m c k := by
  obtain ⟨e0, e1, -⟩ := block_indices t
  unfold iblk
  rw [View.read_apply]
  show V (F := Ideal) m c main_v86 _ = V (F := Ideal) m c main_v86 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 16 + 1 * (x 1).val = (k 1).val; rw [e1, hk1]; omega

/-- Window 1's block at point `t`, entry `x`: the embedding at row `(t % 8) · 1024 + x₀`. -/
theorem colBlock_apply (c : Dev nD) (t : Fin cfg0.N) (x : S1024x16.Idx) (k : S8192x16.Idx)
    (hk0 : (k 0).val = t.val % 8 * 1024 + (x 0).val) (hk1 : (k 1).val = (x 1).val) :
    (iblk (F := Ideal) m c 1 t : Vec Ideal S1024x16 .f32) x = Z m c k := by
  obtain ⟨-, -, e2, e3, -⟩ := block_indices t
  unfold iblk
  rw [View.read_apply]
  show V (F := Ideal) m c main_v86 _ = V (F := Ideal) m c main_v86 _
  congr 1
  funext a
  apply Fin.ext
  match a with
  | ⟨0, _⟩ => show win0_1.index t (0 : Fin 2) * 1024 + 1 * (x 0).val = (k 0).val; rw [e2, hk0]; omega
  | ⟨1, _⟩ => show win0_1.index t (1 : Fin 2) * 16 + 1 * (x 1).val = (k 1).val; rw [e3, hk1]; omega

/-! ## What a point writes back, and the tiling -/

/-- WHAT POINT `t` WRITES BACK is block `t` of `z zᵀ`: entry `(r, s)` of the buffer is the inner product of row `r`
    of window 0's block with row `s` of window 1's, which are rows `(t / 8) · 1024 + r` and `(t % 8) · 1024 + s` of
    the embedding — the coordinates of that entry in the result. -/
theorem flushed_gram (c : Dev nD) (t : Fin cfg0.N) :
    (dats (F := Ideal) m 0 c).flushed 2 t = ((cfg0.win 2).blk t).view.read (Elt Ideal) (gram (Z m c)) := by
  show (cfg0.win 2).cut (grid0.coords t) ((dats (F := Ideal) m 0 c).after 2 t) = _
  rw [after2]
  obtain ⟨-, -, -, -, e4, e5⟩ := block_indices t
  funext j
  rw [View.read_apply]
  show outBlock (iblk (F := Ideal) m c 0 t) (iblk (F := Ideal) m c 1 t) ((cfg0.win 2).xinj (grid0.coords t) j) = gram (Z m c) (((cfg0.win 2).blk t).view.emb j)
  refine (outBlock_apply _ _ _).trans ?_
  unfold gram gramAt
  refine Finset.sum_congr rfl fun k _ => ?_
  refine congrArg₂ (· * ·) ?_ ?_
  · refine rowBlock_apply m c t _ _ ?_ rfl
    show win0_2.index t (0 : Fin 2) * 1024 + 1 * (j 0).val = t.val / 8 * 1024 + (j 0).val
    rw [e4]; omega
  · refine colBlock_apply m c t _ _ ?_ rfl
    show win0_2.index t (1 : Fin 2) * 1024 + 1 * (j 1).val = t.val % 8 * 1024 + (j 1).val
    rw [e5]; omega

/-- An entry of the result is in point `t`'s block iff each coordinate is in the block's range on its axis. -/
theorem mem_resultBlock (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v87).slice (win0_2.rect t)).set ↔ _
  rw [View.set_slice_whole, Rect.mem_set_unit]
  exact Iff.rfl

/-- The 64 blocks tile the result: entry `(r, s)` lies in the block of point `(r / 1024) · 8 + s / 1024`, and every
    point writes its block back. -/
theorem tiled (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ : ∃ t : Fin cfg0.N, t.val = (i 0).val / 1024 * 8 + (i 1).val / 1024 :=
    ⟨⟨(i 0).val / 1024 * 8 + (i 1).val / 1024, by show _ < 64; omega⟩, rfl⟩
  obtain ⟨-, -, -, -, e4, e5⟩ := block_indices t
  refine ⟨t, flush0_2 t, ?_⟩
  rw [mem_resultBlock]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 1024 ≤ (i 1).val ∧ (i 1).val < win0_2.index t (1 : Fin 2) * 1024 + 1024; rw [e5]; omega

/-! ## The result array -/

/-- THE RESULT ARRAY after the run is `z zᵀ` of the embedding as the region finds it. -/
theorem out_array (m : (ℓ : Loc nD τ sig) → Buf (Elt Ideal) ℓ) (c : Dev nD) :
    ((Cert.KernelIdeal.Decode.dats (F := Ideal) m 0 c).arrAt 2 cfg0.N : Cert.DecodeSpec.SO.Idx → EReal) = Cert.DecodeSpec.gram (Cert.KernelIdeal.Decode.V (F := Ideal) m c main_v86) :=
  (dats (F := Ideal) m 0 c).arrAt_eq_of_cover 2 (gram (Z m c)) (fun t _ => flushed_gram m c t) tiled

end Cert.KernelIdeal.DecodeValue

end
-- ==== Proof.HostZ.lean ====
import proofs.«167601_j63110249447564_1_alg».proof.Proof.BodyKernelIdeal
import proofs.«167601_j63110249447564_1_alg».proof.Proof.Gen.ReferenceIdeal.Read
import Idealize.ShloMosaic.Lib.StableHlo.Run

/-!
# The kernel program's host prefix computes the reference's embedding

Before its one region the kernel program runs 108 host operations on the ten launch arrays; the last of them
writes the node embedding `z : [8192, 16]` that both input windows of the region read. The reference program
runs the same 108 operations on the same ten arrays before its own product. This module states that the array
the region finds at `z`'s buffer is the reference's stage function of `z`, applied to the launch contents of
the ten arguments.

Both sides are one composed term of the same operations on the same arguments: on the left the fold of the
operation list read at `z`'s buffer — each operation's result at its own buffer is its function's value at its
operands' contents, and at any other buffer what was there —, on the right the stage functions, each the
operation applied to the stages of its operands. The two programs name their shapes and their dimension
records separately; the names unfold to the same literals.
-/

noncomputable section

namespace Cert.DecodeBridge

open Idealize.ShloMosaic Idealize.ShloMosaic.TcCoe Idealize.SL.Sem Idealize.ShloMosaic.StableHlo

set_option maxRecDepth 16384 in
set_option maxHeartbeats 44400000 in
/-- The embedding as the region finds it on core `c` is the reference's embedding of the ten launch arrays. -/
theorem kernel_z (m : (ℓ : Loc Cert.KernelIdeal.nD Cert.KernelIdeal.τ Cert.KernelIdeal.sig) → Buf (Elt Ideal) ℓ) (c : Dev Cert.KernelIdeal.nD) :
    (Cert.KernelIdeal.Decode.V (F := Ideal) m c Cert.KernelIdeal.main_v86 : Cert.KernelIdeal.S8192x16.Idx → EReal)
      = Cert.ReferenceIdeal.Read.val_main_v86 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  -- the valuation at the region's entry is the fold of the three stretches' operations, as one list,
  dsimp only [Cert.KernelIdeal.Decode.V, Cert.KernelIdeal.Decode.V0, Cert.KernelIdeal.Decode.prefixOps]
  simp only [Cert.KernelIdeal.Gen.hostOps0, Cert.KernelIdeal.Gen.hostOps0_1, Cert.KernelIdeal.Gen.hostOps0_2, List.flatten_cons, List.flatten_nil, List.append_nil, List.cons_append, List.nil_append]
  -- read at the embedding's buffer: the operations' composed term of the launch contents,
  after_results_simp
  -- which is the stage functions' term, operation by operation.
  rfl

end Cert.DecodeBridge

end
-- ==== Proof.RefValue.lean ====
import proofs.«167601_j63110249447564_1_alg».proof.Proof.Gen.ReferenceIdeal.Read
import proofs.«167601_j63110249447564_1_alg».proof.Proof.Spec
import proofs.«167601_j63110249447564_1_alg».proof.KernelIdeal
import Idealize.ShloMosaic.Lib.Pipeline.Value
import Idealize.ShloMosaic.Lib.ValueIdx

/-!
# The reference's result, and the flattening, as the specification

The reference ends with the transpose of the embedding `z`, the product `z zᵀ` and its row-by-row flattening.
Read at a flat index `i` the result is the sum over `k` of `z (i / 8192, k) * z (i % 8192, k)`, which is the
specification's flattened Gram matrix. The same flattening applied to the Gram matrix itself gives the same function.
-/

noncomputable section

namespace Cert.DecodeBridge

open Idealize.ShloMosaic Idealize.ShloMosaic.ValueIdx Cert.DecodeSpec

/-- The reference's flattened result is the flattened Gram matrix of the embedding it computes. -/
theorem ref_result (x0 : (⟨Cert.ReferenceIdeal.S8192x512, .f32⟩ : BufTy).Contents (Elt Ideal)) (x1 x2 : (⟨Cert.ReferenceIdeal.S131072, .i32⟩ : BufTy).Contents (Elt Ideal)) (x3 : (⟨Cert.ReferenceIdeal.S131072, .f32⟩ : BufTy).Contents (Elt Ideal)) (x4 : (⟨Cert.ReferenceIdeal.S512x32, .f32⟩ : BufTy).Contents (Elt Ideal)) (x5 x6 x7 : (⟨Cert.ReferenceIdeal.S32x16, .f32⟩ : BufTy).Contents (Elt Ideal)) (x8 x9 : (⟨Cert.ReferenceIdeal.S8192x16, .f32⟩ : BufTy).Contents (Elt Ideal)) :
    (Cert.ReferenceIdeal.Read.val_main_v89 (F := Ideal) x0 x1 x2 x3 x4 x5 x6 x7 x8 x9 : Cert.DecodeSpec.SF.Idx → EReal) = Cert.DecodeSpec.gramFlat (Cert.ReferenceIdeal.Read.val_main_v86 (F := Ideal) x0 x1 x2 x3 x4 x5 x6 x7 x8 x9) := by
  funext i
  rw [Cert.ReferenceIdeal.Read.val_main_v89_apply, Cert.ReferenceIdeal.Read.val_main_v88_apply]
  simp only [Cert.ReferenceIdeal.Read.val_main_v87_apply]
  generalize Cert.ReferenceIdeal.Read.val_main_v86 (F := Ideal) x0 x1 x2 x3 x4 x5 x6 x7 x8 x9 = z
  -- the left factor is read at row `i / 8192`, column `k`
  have el : ∀ k : Fin 16, Cert.ReferenceIdeal.Read.lidx_main_v88 (Cert.ReferenceIdeal.Read.idx_main_v89 i) k = ix2 (rowOf i) k :=
    fun k => funext fun a => Fin.ext (by
      match a with
      | ⟨0, _⟩ => rfl
      | ⟨1, _⟩ => rfl)
  -- the right factor, through the transpose, at row `i % 8192`, column `k`
  have er : ∀ k : Fin 16, Cert.ReferenceIdeal.Read.idx_main_v87 (Cert.ReferenceIdeal.Read.ridx_main_v88 (Cert.ReferenceIdeal.Read.idx_main_v89 i) k) = ix2 (colOf i) k :=
    fun k => funext fun a => Fin.ext (by
      match a with
      | ⟨0, _⟩ => rfl
      | ⟨1, _⟩ => rfl)
  show _ = ∑ k : Fin 16, z (ix2 (rowOf i) k) * z (ix2 (colOf i) k)
  refine Finset.sum_congr rfl fun k _ => ?_
  rw [el k, er k]

/-- Flattening the Gram matrix row by row gives the flattened Gram matrix, whatever proof of the flattening's
    side condition is used. -/
theorem flat_of_gram_cast (h : Cert.DecodeSpec.SO.ShapeCasts Cert.DecodeSpec.SF) (z : Cert.DecodeSpec.SZ.Idx → EReal) :
    shapeCast Cert.DecodeSpec.SF (Cert.DecodeSpec.gram z) h = Cert.DecodeSpec.gramFlat z := by
  funext i
  have h0 : (i 0).val < 67108864 := (i 0).isLt
  rw [shapeCast_apply (Cert.DecodeSpec.gram z) h i (ix2 (rowOf i) (colOf i))
    (by rewrite [Shape.rowMajor_val_two, Shape.rowMajor_val_one]; show ((i 0).val) / 8192 * 8192 + ((i 0).val) % 8192 = (i 0).val; omega)]
  rfl

/-- The same, with the kernel program's names for the two shapes and for the side condition. -/
theorem flat_of_gram [Cert.KernelIdeal.Facts] (z : Cert.DecodeSpec.SZ.Idx → EReal) :
    (shapeCast Cert.KernelIdeal.S67108864 (Cert.DecodeSpec.gram z) Cert.KernelIdeal.Facts₀.shapeCasts_S8192x8192_S67108864 : Cert.DecodeSpec.SF.Idx → EReal) = Cert.DecodeSpec.gramFlat z :=
  flat_of_gram_cast Cert.KernelIdeal.Facts₀.shapeCasts_S8192x8192_S67108864 z

end Cert.DecodeBridge

end
-- ==== Proof.lean ====
/-
  The decoder kernel against its reference, over the extended reals.

  Both programs compute a node embedding `z : [8192, 16]` from the ten inputs by the same host operations — a
  graph-convolution layer, three heads, two row softmaxes, the reparameterisation — and return the flattened
  inner-product decoder `z zᵀ`. The reference takes `z zᵀ` as one product of `z` with its transpose; the kernel
  program hands `z` to a pipelined kernel through two windows, row block `i` and row block `j`, and stores the
  product of block `i` with the transposed block `j` into block `(i, j)` of the result. At the ideal instance a
  change of float format is the identity and every sum is exact, so both results are, at flat index `n`,
  `∑ k < 16, z (n / 8192, k) · z (n % 8192, k)` (`Cert.DecodeSpec.gramFlat`): a sum of sixteen products, with no
  regrouping, so no finiteness is needed and the precondition is never opened.

  The pieces: the kernel's body, proof data and run (`Cert.Kernel.Decode`, `Cert.KernelIdeal.Decode`: the two
  input windows hold the one array `z` at the two halves of the full share); the result array as the Gram matrix
  of `z` (`Cert.KernelIdeal.DecodeValue.out_array`); the kernel program's host lines computing the reference's
  `z` (`Cert.DecodeBridge.kernel_z`); the reference's result and the flattening (`Cert.DecodeBridge.ref_result`,
  `flat_of_gram`). The ideal pass rewrote nothing, so `preserves` is trivial.
-/
import proofs.«167601_j63110249447564_1_alg».proof.Defs
import proofs.«167601_j63110249447564_1_alg».proof.Proof.Gen.Kernel
import proofs.«167601_j63110249447564_1_alg».proof.Proof.Gen.KernelIdeal
import proofs.«167601_j63110249447564_1_alg».proof.Proof.Gen.ReferenceIdeal
import proofs.«167601_j63110249447564_1_alg».proof.Proof.Gen.Pre_finite_inputs
import proofs.«167601_j63110249447564_1_alg».proof.Proof.Gen.ReferenceIdeal.Run
import proofs.«167601_j63110249447564_1_alg».proof.Proof.Gen.ReferenceIdeal.Read
import proofs.«167601_j63110249447564_1_alg».proof.Proof.Spec
import proofs.«167601_j63110249447564_1_alg».proof.Proof.RunKernel
import proofs.«167601_j63110249447564_1_alg».proof.Proof.RunKernelIdeal
import proofs.«167601_j63110249447564_1_alg».proof.Proof.KernelValue
import proofs.«167601_j63110249447564_1_alg».proof.Proof.HostZ
import proofs.«167601_j63110249447564_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Decode.frame m ρ

/-- So does its idealization. -/
theorem frame_ki : Cert.frame_KernelIdeal := fun m ρ _ => Cert.KernelIdeal.Decode.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read at the ideal instance. -/
theorem preserves : Cert.preserves_Kernel_KernelIdeal := trivial

/-- The embedding the kernel program's memory determines: the reference's stage function of the ten arguments. -/
def zOf (m : (ℓ : Loc Cert.KernelIdeal.nD Cert.KernelIdeal.τ Cert.KernelIdeal.sig) → Buf (Elt Ideal) ℓ) (c : Dev Cert.KernelIdeal.nD) :
    Cert.DecodeSpec.SZ.Idx → EReal :=
  Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- What the kernel program returns: the flattened Gram matrix of that embedding — the result array is the Gram
    matrix of the embedding the region found, which is the reference's, and the last host line flattens it. -/
theorem kernel_result (m : (ℓ : Loc Cert.KernelIdeal.nD Cert.KernelIdeal.τ Cert.KernelIdeal.sig) → Buf (Elt Ideal) ℓ) (c : Dev Cert.KernelIdeal.nD) :
    (shapeCast Cert.KernelIdeal.S67108864 ((Cert.KernelIdeal.Decode.dats (F := Ideal) m 0 c).arrAt 2 Cert.KernelIdeal.cfg0.N)
        Cert.KernelIdeal.Facts₀.shapeCasts_S8192x8192_S67108864 : Cert.DecodeSpec.SF.Idx → EReal)
      = Cert.DecodeSpec.gramFlat (zOf m c) := by
  rw [Cert.KernelIdeal.DecodeValue.out_array m c, Cert.DecodeBridge.kernel_z m c]
  exact Cert.DecodeBridge.flat_of_gram _

/-- At the ideal instance, from memories agreeing on the arguments, both programs run, leave their arguments as
    launched, and return the same array: the flattened Gram matrix of the one embedding. -/
theorem algebraic : Cert.algebraic_KernelIdeal_ReferenceIdeal := by
  intro m ρ m' ρ' _ hagree
  refine ⟨fun c => Cert.DecodeSpec.gramFlat (zOf m c), ?_, ?_⟩
  · refine (θ_run Cert.KernelIdeal.defs _ _).mono (fun r h c => ⟨?_, Cert.KernelIdeal.Decode.kept_args m c h⟩)
      (Cert.KernelIdeal.Decode.run_main (F := Ideal) m ρ)
    exact (Cert.KernelIdeal.Decode.result_of m c h).trans (kernel_result m c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v89_eq m' c, Cert.DecodeBridge.ref_result]
    unfold zOf
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
